-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x8192 .f32) (main_arg1 : FVec F S1024x8192 .f32) (main_arg2 : FVec F S1024x8192 .f32) (main_arg3 : FVec F S1024 .f32) (main_arg4 : FVec F S1024x1024 .f32) (main_arg5 : FVec F S1024 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S2048x1024 : Shape := ⟨2, ![2048, 1024]⟩
abbrev S512x512 : Shape := ⟨2, ![512, 512]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024, .f32⟩
  | .local _ .vmem, ⟨7, _⟩ => ⟨S1024x1024, .f32⟩
  | .local _ .vmem, ⟨8, _⟩ => ⟨S1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  dot_S512x512_S1024x512_S512x1024_1_1_0_0_n_n_wf : DotDims.WF S512x512 S1024x512 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x8192.size a
  hwx0_0 : ∀ i : grid0.Coords, EltTy.bits .f32 = 32 ∨ (Rect.block (s := S2048x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x8192.size a
  hwx0_1 : ∀ i : grid0.Coords, EltTy.bits .f32 = 32 ∨ (Rect.block (s := S1024x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x8192.size a
  hwx0_2 : ∀ i : grid0.Coords, EltTy.bits .f32 = 32 ∨ (Rect.block (s := S1024x8192) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S2048x1024.size a
  hwx0_6 : ∀ i : grid0.Coords, EltTy.bits .f32 = 32 ∨ (Rect.block (s := S2048x1024) S512x1024.size (cc0_transform_6 i) (hinb0_6 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x8192, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x8192_S1024x8192_S2048x1024_1_1_0_0_n_n_wf : DotDims.WF S2048x8192 S1024x8192 S2048x1024 [1] [1] [0] [0] [] []
  dot_S2048x1024_S1024x1024_S2048x1024_1_0_0_1_n_n_wf : DotDims.WF S2048x1024 S1024x1024 S2048x1024 [1] [0] [0] [1] [] []

variable [Facts₀]

def dot_S2048x8192_S1024x8192_S2048x1024_1_1_0_0_n_n : DotDims S2048x8192 S1024x8192 S2048x1024 where
  lhsContracting := [1]
  rhsContracting := [1]
  lhsNonContracting := [0]
  rhsNonContracting := [0]
  lhsBatch := []
  rhsBatch := []
  wf := dot_S2048x8192_S1024x8192_S2048x1024_1_1_0_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.Pieces.lean ====
/-
  What one run of the kernel body leaves behind, case by case, as values.

  The body keeps a `[512, 1024]` accumulator in scratch memory across the 16 points of a row of the grid.
  * At the first point of a row it stores zero into the accumulator, reads it back, adds the block product and stores
    the sum: the accumulator ends at the accumulation's value over the zero block.
  * At every later point it reads the accumulator the point before left, adds the block product and stores the sum.
  * At the last point of a row it moreover reads the accumulator it has just stored and writes the finalisation's
    value of it into the output block.
  Each statement holds for any float values; the body's stores cover the buffers whole, through the rectangle at
  offsets zero.
-/
import proofs.«178797_j52338471469275_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- First point of a row: the accumulator ends at the accumulation over the zero block. -/
theorem scratch_first (c : Dev nD) (i : grid0.Coords) (a2 : Memref sig .tc .vmem S512x512 .f32) (h2 : a2.IsWhole) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024 .f32) (h7 : a7.IsWhole) (a8 : Memref sig .tc .vmem S512x1024 .f32) (h8 : a8.IsWhole) (a9 : Memref sig .tc .vmem S512x1024 .f32) (h9 : a9.IsWhole) (hc0 : cond0_0 i) (hc1 : ¬cond0_1 i) (x0 : Vec F S512x512 .f32) (x1 x2 : Vec F S1024x512 .f32) (x3 : Vec F S1024 .f32) (x4 : Vec F S1024x1024 .f32) (x5 : Vec F S1024 .f32) :
    sout0_A_0 c i a2 h2 a3 h3 a4 h4 a5 h5 a6 h6 a7 h7 a8 h8 a9 h9 hc0 hc1 x0 x1 x2 x3 x4 x5 = k0_pay2 x0 x1 x2 k0_pay1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, h2.read_unread, h3.read_unread, h4.read_unread, h5.read_unread, h6.read_unread, h7.read_unread, h8.read_unread, h9.read_unread, View.ld_unit_zero (S := S512x512) hz, View.ld_unit_zero (S := S1024x512) hz, View.ld_unit_zero (S := S512x1024) hz, View.ld_unit_zero (S := S1024x1024) hz, View.ld_unit_zero (S := S1024) hz1]

/-- A middle point of a row: the accumulator ends at the accumulation over what the point before left. -/
theorem scratch_middle (c : Dev nD) (i : grid0.Coords) (a2 : Memref sig .tc .vmem S512x512 .f32) (h2 : a2.IsWhole) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024 .f32) (h7 : a7.IsWhole) (a8 : Memref sig .tc .vmem S512x1024 .f32) (h8 : a8.IsWhole) (a9 : Memref sig .tc .vmem S512x1024 .f32) (h9 : a9.IsWhole) (hc0 : ¬cond0_0 i) (hc1 : ¬cond0_1 i) (x0 : Vec F S512x512 .f32) (x1 x2 : Vec F S1024x512 .f32) (x3 : Vec F S1024 .f32) (x4 : Vec F S1024x1024 .f32) (x5 : Vec F S1024 .f32)
    (acc : Vec F S512x1024 .f32) :
    sout0_B_0 c i a2 h2 a3 h3 a4 h4 a5 h5 a6 h6 a7 h7 a8 h8 a9 h9 hc0 hc1 x0 x1 x2 x3 x4 x5 acc = k0_pay2 x0 x1 x2 acc := by
  unfold sout0_B_0
  rw [View.read_writes_eq_canon _ _ _ (scover0_B_0 c i a2 h2 a3 h3 a4 h4 a5 h5 a6 h6 a7 h7 a8 h8 a9 h9 hc0 hc1 x0 x1 x2 x3 x4 x5 acc)]
  unfold kernelRun0_B
  dsimp only
  sl_unfold_words
  rw [View.canon_unit_zero (S := S512x1024) hz]
  simp only [View.readAt_eq_ld, h2.read_unread, h3.read_unread, h4.read_unread, h5.read_unread, h6.read_unread, h7.read_unread, h8.read_unread, h9.read_unread, View.ld_unit_zero (S := S512x512) hz, View.ld_unit_zero (S := S1024x512) hz, View.ld_unit_zero (S := S512x1024) hz, View.ld_unit_zero (S := S1024x1024) hz, View.ld_unit_zero (S := S1024) hz1]

/-- The last point of a row: the accumulator likewise, -/
theorem scratch_last (c : Dev nD) (i : grid0.Coords) (a2 : Memref sig .tc .vmem S512x512 .f32) (h2 : a2.IsWhole) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024 .f32) (h7 : a7.IsWhole) (a8 : Memref sig .tc .vmem S512x1024 .f32) (h8 : a8.IsWhole) (a9 : Memref sig .tc .vmem S512x1024 .f32) (h9 : a9.IsWhole) (hc0 : ¬cond0_0 i) (hc1 : cond0_1 i) (x0 : Vec F S512x512 .f32) (x1 x2 : Vec F S1024x512 .f32) (x3 : Vec F S1024 .f32) (x4 : Vec F S1024x1024 .f32) (x5 : Vec F S1024 .f32)
    (acc : Vec F S512x1024 .f32) :
    sout0_C_0 c i a2 h2 a3 h3 a4 h4 a5 h5 a6 h6 a7 h7 a8 h8 a9 h9 hc0 hc1 x0 x1 x2 x3 x4 x5 acc = k0_pay2 x0 x1 x2 acc := by
  unfold sout0_C_0
  rw [View.read_writes_eq_canon _ _ _ (scover0_C_0 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero (S := S512x1024) hz]
  simp only [View.readAt_eq_ld, h2.read_unread, h3.read_unread, h4.read_unread, h5.read_unread, h6.read_unread, h7.read_unread, h8.read_unread, h9.read_unread, View.ld_unit_zero (S := S512x512) hz, View.ld_unit_zero (S := S1024x512) hz, View.ld_unit_zero (S := S512x1024) hz, View.ld_unit_zero (S := S1024x1024) hz, View.ld_unit_zero (S := S1024) hz1]

/-- and the output block ends at the finalisation of that accumulator. -/
theorem out_last (c : Dev nD) (i : grid0.Coords) (a2 : Memref sig .tc .vmem S512x512 .f32) (h2 : a2.IsWhole) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024 .f32) (h7 : a7.IsWhole) (a8 : Memref sig .tc .vmem S512x1024 .f32) (h8 : a8.IsWhole) (a9 : Memref sig .tc .vmem S512x1024 .f32) (h9 : a9.IsWhole) (hc0 : ¬cond0_0 i) (hc1 : cond0_1 i) (x0 : Vec F S512x512 .f32) (x1 x2 : Vec F S1024x512 .f32) (x3 : Vec F S1024 .f32) (x4 : Vec F S1024x1024 .f32) (x5 : Vec F S1024 .f32)
    (acc : Vec F S512x1024 .f32) :
    out0_C_6 c i a2 h2 a3 h3 a4 h4 a5 h5 a6 h6 a7 h7 a8 h8 a9 h9 hc0 hc1 x0 x1 x2 x3 x4 x5 acc = k0_pay3 (k0_pay2 x0 x1 x2 acc) x3 x4 x5 := by
  unfold out0_C_6
  rw [View.read_writes_eq_canon _ _ _ (cover0_C_6 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero (S := S512x1024) hz]
  simp only [View.readCov_unit_zero (S := S512x1024) _ hz, View.readAt_eq_ld, h2.read_unread, h3.read_unread, h4.read_unread, h5.read_unread, h6.read_unread, h7.read_unread, h8.read_unread, h9.read_unread, View.ld_unit_zero (S := S512x512) hz, View.ld_unit_zero (S := S1024x512) hz, View.ld_unit_zero (S := S512x1024) hz, View.ld_unit_zero (S := S1024x1024) hz, View.ld_unit_zero (S := S1024) hz1]

end Cert.KernelIdeal.Pieces

end
-- ==== Proof.Blocks.lean ====
/-
  The blocks a grid point sees, read off the argument arrays.

  The grid has 4 × 16 points; point `t` is row `t / 16` of the batch tiles and position `t % 16` along the contraction.
  * The input block is rows `512 * (t / 16) + r`, contraction positions `512 * (t % 16) + l` of `X`.
  * The mask and weight blocks are all 1024 rows, contraction positions `512 * (t % 16) + l`, of `S` and `Θ`.
  * Both biases and the second weight matrix are resident: their one block is the whole array.
  A block's coordinate along an axis is always (block index) × (block extent) + the coordinate inside the block.
-/
import proofs.«178797_j52338471469275_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

theorem lt64 (t : Fin cfg0.N) : t.val < 64 := lt_of_lt_of_eq t.isLt N_0

/-- The array row of local row `r` at point `n`. -/
def rowOf (n : ℕ) (hn : n < 64) (r : Fin 512) : Fin 2048 := ⟨512 * (n / 16) + r.val, by have := r.isLt; omega⟩
/-- The contraction position of offset `l` in block `k`. -/
def colOf (k : ℕ) (hk : k < 16) (l : Fin 512) : Fin 8192 := ⟨512 * k + l.val, by have := l.isLt; omega⟩

/-! ### The index maps, decided over the 64 points -/

theorem index0 : ∀ t : Fin cfg0.N, win0_0.index t 0 = t.val / 16 ∧ win0_0.index t 1 = t.val % 16 := by decide +kernel
theorem index1 : ∀ t : Fin cfg0.N, win0_1.index t 0 = 0 ∧ win0_1.index t 1 = t.val % 16 := by decide +kernel
theorem index2 : ∀ t : Fin cfg0.N, win0_2.index t 0 = 0 ∧ win0_2.index t 1 = t.val % 16 := by decide +kernel
theorem index3 : ∀ t : Fin cfg0.N, win0_3.index t 0 = 0 := by decide +kernel
theorem index4 : ∀ t : Fin cfg0.N, win0_4.index t 0 = 0 ∧ win0_4.index t 1 = 0 := by decide +kernel
theorem index5 : ∀ t : Fin cfg0.N, win0_5.index t 0 = 0 := by decide +kernel
theorem index6 : ∀ t : Fin cfg0.N, win0_6.index t 0 = t.val / 16 ∧ win0_6.index t 1 = 0 := by decide +kernel

/-! ### The blocks and the arrays, at their literal types -/

abbrev xblk (c : Dev nD) (t : Fin cfg0.N) : Vec F S512x512 .f32 := iblk m c 0 t
abbrev sblk (c : Dev nD) (t : Fin cfg0.N) : Vec F S1024x512 .f32 := iblk m c 1 t
abbrev θblk (c : Dev nD) (t : Fin cfg0.N) : Vec F S1024x512 .f32 := iblk m c 2 t
abbrev bblk (c : Dev nD) (t : Fin cfg0.N) : Vec F S1024 .f32 := iblk m c 3 t
abbrev wblk (c : Dev nD) (t : Fin cfg0.N) : Vec F S1024x1024 .f32 := iblk m c 4 t
abbrev b2blk (c : Dev nD) (t : Fin cfg0.N) : Vec F S1024 .f32 := iblk m c 5 t

abbrev Xarr (c : Dev nD) : Vec F S2048x8192 .f32 := V m c main_arg0
abbrev Sarr (c : Dev nD) : Vec F S1024x8192 .f32 := V m c main_arg1
abbrev Θarr (c : Dev nD) : Vec F S1024x8192 .f32 := V m c main_arg2
abbrev Barr (c : Dev nD) : Vec F S1024 .f32 := V m c main_arg3
abbrev Warr (c : Dev nD) : Vec F S1024x1024 .f32 := V m c main_arg4
abbrev B2arr (c : Dev nD) : Vec F S1024 .f32 := V m c main_arg5

/-- The input block at `(r, l)` is `X` at the point's row and contraction position. -/
theorem xblk_apply (c : Dev nD) (t : Fin cfg0.N) (r l : Fin 512) :
    xblk m c t (ix2 r l)
      = Xarr m c (ix2 (rowOf t.val (lt64 t) r) (colOf (t.val % 16) (Nat.mod_lt _ (by decide)) l)) := by
  have hi := index0 t
  show iblk m c 0 t (ix2 r l) = V m c main_arg0 _
  unfold iblk
  rw [View.read_apply]
  show V m c main_arg0 _ = V m c main_arg0 _
  congr 1
  funext a
  apply Fin.ext
  match a with
  | ⟨0, _⟩ => show win0_0.index t 0 * 512 + 1 * r.val = 512 * (t.val / 16) + r.val; rw [hi.1]; omega
  | ⟨1, _⟩ => show win0_0.index t 1 * 512 + 1 * l.val = 512 * (t.val % 16) + l.val; rw [hi.2]; omega

/-- The mask block at `(j, l)` is `S` at row `j` and the point's contraction position. -/
theorem sblk_apply (c : Dev nD) (t : Fin cfg0.N) (j : Fin 1024) (l : Fin 512) :
    sblk m c t (ix2 j l) = Sarr m c (ix2 j (colOf (t.val % 16) (Nat.mod_lt _ (by decide)) l)) := by
  have hi := index1 t
  show iblk m c 1 t (ix2 j l) = V m c main_arg1 _
  unfold iblk
  rw [View.read_apply]
  show V m c main_arg1 _ = V m c main_arg1 _
  congr 1
  funext a
  apply Fin.ext
  match a with
  | ⟨0, _⟩ => show win0_1.index t 0 * 1024 + 1 * j.val = j.val; rw [hi.1]; omega
  | ⟨1, _⟩ => show win0_1.index t 1 * 512 + 1 * l.val = 512 * (t.val % 16) + l.val; rw [hi.2]; omega

/-- The weight block likewise, of `Θ`. -/
theorem θblk_apply (c : Dev nD) (t : Fin cfg0.N) (j : Fin 1024) (l : Fin 512) :
    θblk m c t (ix2 j l) = Θarr m c (ix2 j (colOf (t.val % 16) (Nat.mod_lt _ (by decide)) l)) := by
  have hi := index2 t
  show iblk m c 2 t (ix2 j l) = V m c main_arg2 _
  unfold iblk
  rw [View.read_apply]
  show V m c main_arg2 _ = V m c main_arg2 _
  congr 1
  funext a
  apply Fin.ext
  match a with
  | ⟨0, _⟩ => show win0_2.index t 0 * 1024 + 1 * j.val = j.val; rw [hi.1]; omega
  | ⟨1, _⟩ => show win0_2.index t 1 * 512 + 1 * l.val = 512 * (t.val % 16) + l.val; rw [hi.2]; omega

/-- The first bias is resident: its block is the array. -/
theorem bblk_apply (c : Dev nD) (t : Fin cfg0.N) (j : Fin 1024) : bblk m c t (ix1 j) = Barr m c (ix1 j) := by
  have hi := index3 t
  show iblk m c 3 t (ix1 j) = V m c main_arg3 _
  unfold iblk
  rw [View.read_apply]
  show V m c main_arg3 _ = V m c main_arg3 _
  congr 1
  funext a
  apply Fin.ext
  match a with
  | ⟨0, _⟩ => show win0_3.index t 0 * 1024 + 1 * j.val = j.val; rw [hi]; omega

/-- The second weight matrix is resident: its block is the array. -/
theorem wblk_apply (c : Dev nD) (t : Fin cfg0.N) (j o : Fin 1024) : wblk m c t (ix2 j o) = Warr m c (ix2 j o) := by
  have hi := index4 t
  show iblk m c 4 t (ix2 j o) = V m c main_arg4 _
  unfold iblk
  rw [View.read_apply]
  show V m c main_arg4 _ = V m c main_arg4 _
  congr 1
  funext a
  apply Fin.ext
  match a with
  | ⟨0, _⟩ => show win0_4.index t 0 * 1024 + 1 * j.val = j.val; rw [hi.1]; omega
  | ⟨1, _⟩ => show win0_4.index t 1 * 1024 + 1 * o.val = o.val; rw [hi.2]; omega

/-- The second bias is resident: its block is the array. -/
theorem b2blk_apply (c : Dev nD) (t : Fin cfg0.N) (o : Fin 1024) : b2blk m c t (ix1 o) = B2arr m c (ix1 o) := by
  have hi := index5 t
  show iblk m c 5 t (ix1 o) = V m c main_arg5 _
  unfold iblk
  rw [View.read_apply]
  show V m c main_arg5 _ = V m c main_arg5 _
  congr 1
  funext a
  apply Fin.ext
  match a with
  | ⟨0, _⟩ => show win0_5.index t 0 * 1024 + 1 * o.val = o.val; rw [hi]; omega

end Cert.KernelIdeal.Blocks

end
-- ==== Proof.Steps.lean ====
/-
  What the accumulator and the output block hold after a grid point, in terms of the point before.

  Along a row of the grid (16 consecutive points) the scratch accumulator is reset at the first point and carried
  through the others:
  * after the first point it is the accumulation's value of that point's blocks over the zero block;
  * after any later point it is the accumulation's value of that point's blocks over what the point before left;
  * at the last point the output block is the finalisation's value of the accumulator that point has just stored.
  These hold for any float values.
-/
import proofs.«178797_j52338471469275_1_alg».proof.Proof.Pieces
import proofs.«178797_j52338471469275_1_alg».proof.Proof.Blocks

noncomputable section

namespace Cert.KernelIdeal.Steps

open Cert.KernelIdeal Cert.KernelIdeal.Gen Idealize.ShloMosaic Idealize.ShloMosaic.TcCoe
open Cert.KernelIdeal.Blocks

variable {F : FTy → Type} [FloatOps F]
variable (m : (ℓ : Loc nD τ sig) → Buf (Elt F) ℓ)

/-- After the first point of a row. -/
theorem acc_first (c : Dev nD) (t : Fin cfg0.N) (h0 : t.val % 16 = 0) :
    (outsAt0 m c t.val t.isLt).2 = k0_pay2 (xblk m c t) (sblk m c t) (θblk m c t) k0_pay1 := by
  have h1 : ¬t.val % 16 = 15 := by omega
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xblk m c t) (sblk m c t) (θblk m c t) (bblk m c t) (wblk m c t) (b2blk m c t)

/-- After a later point of a row: over what the point before left. -/
theorem acc_later (c : Dev nD) (t : Fin cfg0.N) (h0 : ¬t.val % 16 = 0) :
    (outsAt0 m c t.val t.isLt).2
      = k0_pay2 (xblk m c t) (sblk m c t) (θblk m c t) (outsAt0 m c (t.val - 1) (Nat.lt_of_le_of_lt (Nat.sub_le _ _) t.isLt)).2 := by
  by_cases h1 : t.val % 16 = 15
  · rw [outsAt0_C m c t h0 h1]
    dsimp only
    exact Pieces.scratch_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (sblk m c t) (θblk m c t) (bblk m c t) (wblk m c t) (b2blk m c t) (outsAt0 m c (t.val - 1) (Nat.lt_of_le_of_lt (Nat.sub_le _ _) t.isLt)).2
  · rw [outsAt0_B m c t h0 h1]
    dsimp only
    exact Pieces.scratch_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (xblk m c t) (sblk m c t) (θblk m c t) (bblk m c t) (wblk m c t) (b2blk m c t) (outsAt0 m c (t.val - 1) (Nat.lt_of_le_of_lt (Nat.sub_le _ _) t.isLt)).2

/-- At the last point of a row the output block is the finalisation of the accumulator just stored. -/
theorem out_last (c : Dev nD) (t : Fin cfg0.N) (h1 : t.val % 16 = 15) :
    (outsAt0 m c t.val t.isLt).1
      = k0_pay3 (outsAt0 m c t.val t.isLt).2 (bblk m c t) (wblk m c t) (b2blk m c t) := by
  have h0 : ¬t.val % 16 = 0 := by omega
  rw [acc_later m c t h0, outsAt0_C m c t h0 h1]
  dsimp only
  exact Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (sblk m c t) (θblk m c t) (bblk m c t) (wblk m c t) (b2blk m c t) (outsAt0 m c (t.val - 1) (Nat.lt_of_le_of_lt (Nat.sub_le _ _) t.isLt)).2

end Cert.KernelIdeal.Steps

end
-- ==== Proof.PayAt.lean ====
/-
  The kernel body's three stored values, read at one entry over the extended reals.

  * the reset stores the zero word everywhere;
  * the accumulation stores `acc[r, j] + ∑ l < 512, x[r, l] * (s[j, l] * θ[j, l])`: the block product contracts the
    second axis of both operands, and narrowing to sixteen bits is the identity on extended reals;
  * the finalisation stores `(∑ j < 1024, max (acc[r, j] + b[j]) 0 * w[j, o]) + b2[o]`: a bias row is cast to
    `[1, 1024]` and broadcast over the 512 rows, so at `(r, j)` it reads `b[j]`.
-/
import proofs.«178797_j52338471469275_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-- The reset's value: zero at every entry. -/
theorem pay1_apply (y : S512x1024.Idx) : k0_pay1 (F := Ideal) y = 0 := by
  unfold k0_pay1
  simp only [shapeCast_self]
  exact Ideal.ofBits_zero_f32

/-! ### The block product `[512, 512] × [1024, 512] → [512, 1024]`, contracting both second axes -/

theorem lhs_blk_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_blk_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhs_blk_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_blk_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The accumulation's value at `(r, j)`: what was there plus the block's contraction. -/
theorem pay2_apply (x : FVec Ideal S512x512 .f32) (s θ : FVec Ideal S1024x512 .f32) (acc : FVec Ideal S512x1024 .f32)
    (r : Fin 512) (j : Fin 1024) :
    k0_pay2 (F := Ideal) x s θ acc (ix2 r j)
      = acc (ix2 r j) + ∑ l : Fin 512, x (ix2 r l) * (s (ix2 j l) * θ (ix2 j l)) := by
  unfold k0_pay2
  simp only [shapeCast_self]
  rw [addf_apply]
  congr 1
  simp only [matmul]
  rw [Ideal.matmul_constant_zero_apply, ← Equiv.sum_comp (contrEquiv1 dot_S512x512_S1024x512_S512x1024_1_1_0_0_n_n 512 rfl rfl).symm]
  refine Finset.sum_congr rfl fun l _ => ?_
  have hk := contrEquiv1_symm_val dot_S512x512_S1024x512_S512x1024_1_1_0_0_n_n 512 rfl rfl l
  have el : dot_S512x512_S1024x512_S512x1024_1_1_0_0_n_n.lhsIdx (ix2 r j) ((contrEquiv1 dot_S512x512_S1024x512_S512x1024_1_1_0_0_n_n 512 rfl rfl).symm l) = ix2 r l := funext fun a => Fin.ext (by
    match a with
    | ⟨0, _⟩ => exact lhs_blk_0 _ _
    | ⟨1, _⟩ => exact (lhs_blk_1 _ _).trans hk)
  have er : dot_S512x512_S1024x512_S512x1024_1_1_0_0_n_n.rhsIdx (ix2 r j) ((contrEquiv1 dot_S512x512_S1024x512_S512x1024_1_1_0_0_n_n 512 rfl rfl).symm l) = ix2 j l := funext fun a => Fin.ext (by
    match a with
    | ⟨0, _⟩ => exact rhs_blk_0 _ _
    | ⟨1, _⟩ => exact (rhs_blk_1 _ _).trans hk)
  rw [el, er]
  rfl

/-! ### The second product `[512, 1024] × [1024, 1024] → [512, 1024]`, rows by columns -/

theorem lhs_fin_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_fin_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_fin_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_fin_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A bias row cast to `[1, 1024]` and broadcast over 512 rows reads the bias at the column. -/
theorem bias_apply (b : FVec Ideal S1024 .f32) (h1 : S1024.ShapeCasts S1x1024) (h2 : S1x1024.Broadcasts S512x1024)
    (r : Fin 512) (j : Fin 1024) :
    broadcastTo S512x1024 (shapeCast S1x1024 b h1) h2 (ix2 r j) = b (ix1 j) := by
  rw [broadcastTo_1b_ab_apply, shapeCast_a_1a_apply]

/-- The finalisation's value at `(r, o)`. -/
theorem pay3_apply (acc : FVec Ideal S512x1024 .f32) (b : FVec Ideal S1024 .f32) (w : FVec Ideal S1024x1024 .f32)
    (b2 : FVec Ideal S1024 .f32) (r : Fin 512) (o : Fin 1024) :
    k0_pay3 (F := Ideal) acc b w b2 (ix2 r o)
      = (∑ j : Fin 1024, max (acc (ix2 r j) + b (ix1 j)) (Ideal.ofBits .f32 0x00000000#32) * w (ix2 j o)) + b2 (ix1 o) := by
  unfold k0_pay3
  rw [addf_apply, bias_apply]
  congr 1
  simp only [matmul]
  rw [Ideal.matmul_constant_zero_apply, ← Equiv.sum_comp (contrEquiv1 dot_S512x1024_S1024x1024_S512x1024_1_0_0_1_n_n 1024 rfl rfl).symm]
  refine Finset.sum_congr rfl fun j _ => ?_
  have hk := contrEquiv1_symm_val dot_S512x1024_S1024x1024_S512x1024_1_0_0_1_n_n 1024 rfl rfl j
  have el : dot_S512x1024_S1024x1024_S512x1024_1_0_0_1_n_n.lhsIdx (ix2 r o) ((contrEquiv1 dot_S512x1024_S1024x1024_S512x1024_1_0_0_1_n_n 1024 rfl rfl).symm j) = ix2 r j := funext fun a => Fin.ext (by
    match a with
    | ⟨0, _⟩ => exact lhs_fin_0 _ _
    | ⟨1, _⟩ => exact (lhs_fin_1 _ _).trans hk)
  have er : dot_S512x1024_S1024x1024_S512x1024_1_0_0_1_n_n.rhsIdx (ix2 r o) ((contrEquiv1 dot_S512x1024_S1024x1024_S512x1024_1_0_0_1_n_n 1024 rfl rfl).symm j) = ix2 j o := funext fun a => Fin.ext (by
    match a with
    | ⟨0, _⟩ => exact (rhs_fin_0 _ _).trans hk
    | ⟨1, _⟩ => exact rhs_fin_1 _ _)
  rw [el, er, truncf_apply, truncf_apply, maximumf_apply, addf_apply, bias_apply]
  rfl

end Cert.KernelIdeal.PayAt

end
-- ==== Proof.LibBlockSum.lean ====
/-
  Sums over an initial segment of the naturals, taken one block at a time.  General: no array, no program.

  A contraction over 8192 positions that is accumulated in 16 blocks of 512 is the same sum as the contraction
  taken whole: the sum over the first `w * (k + 1)` naturals is the sum over the first `w * k` plus the sum over
  the block `w * k, …, w * k + (w - 1)`.  This is a statement about a commutative additive monoid; on the extended
  reals it needs no finiteness of the summands, since only the order and the grouping of a sum change.
-/
import Mathlib.Algebra.BigOperators.Fin

namespace Cert.LibBlockSum

open Finset

variable {M : Type*} [AddCommMonoid M]

/-- One more block: the first `w * (k + 1)` terms are the first `w * k` terms and then the `w` terms of block `k`. -/
theorem sum_range_block_succ (f : ℕ → M) (w k : ℕ) :
    ∑ q ∈ range (w * (k + 1)), f q = ∑ q ∈ range (w * k), f q + ∑ l : Fin w, f (w * k + l.val) := by
  rw [Nat.mul_succ, Finset.sum_range_add, Finset.sum_range (fun l => f (w * k + l))]

/-- The first block alone: nothing comes before it. -/
theorem sum_range_block_first (f : ℕ → M) (w : ℕ) :
    ∑ q ∈ range (w * (0 + 1)), f q = ∑ l : Fin w, f (w * 0 + l.val) := by
  rw [sum_range_block_succ, Nat.mul_zero, Finset.sum_range_zero, zero_add]

/-- A sum over the first `n` naturals of a function that is given on `Fin n` is the sum over `Fin n`. -/
theorem sum_range_dite (n : ℕ) (g : Fin n → M) :
    ∑ q ∈ range n, (if h : q < n then g ⟨q, h⟩ else 0) = ∑ i : Fin n, g i := by
  rw [Finset.sum_range]
  exact Finset.sum_congr rfl fun i _ => by rw [dif_pos i.isLt]

end Cert.LibBlockSum
-- ==== Proof.Spec.lean ====
/-
  What both programs compute, as one function of the six argument arrays over the extended reals.

  With `X : [2048, 8192]`, a mask `S` and weights `Θ` of shape `[1024, 8192]`, a bias `B : [1024]`, a second weight
  matrix `W : [1024, 1024]` and a second bias `B2 : [1024]`:

      logit b j  = (∑ q < 8192, X[b, q] * (S[j, q] * Θ[j, q])) + B[j]
      hidden b j = max (logit b j) 0
      out b o    = (∑ j < 1024, hidden b j * W[j, o]) + B2[o]

  The contraction over `q` is written as a sum over an initial segment of the naturals of a summand that vanishes past
  8192.  That form is what an accumulation in 16 blocks of 512 builds up: after block `k` the accumulator holds the
  sum over the first `512 * (k + 1)` positions, and one more block adds the next 512 summands (`partialLogit_succ`).
  Nothing here uses finiteness of the entries: only the grouping of a sum changes.
-/
import Idealize.ShloMosaic.PureOps.Ideal
import Idealize.ShloMosaic.Lib.ValueIdx
import proofs.«178797_j52338471469275_1_alg».proof.Proof.LibBlockSum

noncomputable section

namespace Cert.MaskedMlp

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

variable (X : Mat 2048 8192) (S Θ : Mat 1024 8192) (B : Row 1024) (W : Mat 1024 1024) (B2 : Row 1024)

/-- The product the contraction sums at a position `q < 8192`, as a function on `Fin 8192`. -/
def prodAt (b : Fin 2048) (j : Fin 1024) (q : Fin 8192) : EReal :=
  X (ix2 b q) * (S (ix2 j q) * Θ (ix2 j q))

/-- The same summand on the naturals: zero past the contracted extent. -/
def term (b : Fin 2048) (j : Fin 1024) (q : ℕ) : EReal :=
  if h : q < 8192 then prodAt X S Θ b j ⟨q, h⟩ else 0

/-- The contraction over the first `n` positions only. -/
def partialLogit (b : Fin 2048) (j : Fin 1024) (n : ℕ) : EReal :=
  ∑ q ∈ Finset.range n, term X S Θ b j q

/-- After the first block the partial contraction is that block's sum. -/
theorem partialLogit_first (b : Fin 2048) (j : Fin 1024) :
    partialLogit X S Θ b j (512 * (0 + 1)) = ∑ l : Fin 512, term X S Θ b j (512 * 0 + l.val) :=
  Cert.LibBlockSum.sum_range_block_first _ 512

/-- One more block of 512 positions adds that block's sum. -/
theorem partialLogit_succ (b : Fin 2048) (j : Fin 1024) (k : ℕ) :
    partialLogit X S Θ b j (512 * (k + 1))
      = partialLogit X S Θ b j (512 * k) + ∑ l : Fin 512, term X S Θ b j (512 * k + l.val) :=
  Cert.LibBlockSum.sum_range_block_succ _ 512 k

/-- Inside block `k < 16` the summand at offset `l` is the product at position `512 * k + l`. -/
theorem term_block (b : Fin 2048) (j : Fin 1024) (k : ℕ) (hk : k < 16) (l : Fin 512) :
    term X S Θ b j (512 * k + l.val)
      = prodAt X S Θ b j ⟨512 * k + l.val, by have := l.isLt; omega⟩ :=
  dif_pos _

/-- Over all 8192 positions the partial contraction is the contraction. -/
theorem partialLogit_full (b : Fin 2048) (j : Fin 1024) :
    partialLogit X S Θ b j 8192 = ∑ q : Fin 8192, prodAt X S Θ b j q :=
  Cert.LibBlockSum.sum_range_dite 8192 _

/-- The hidden activation: the biased logit clipped below at the zero word's value. -/
def hidden (b : Fin 2048) (j : Fin 1024) : EReal :=
  max (partialLogit X S Θ b j 8192 + B (ix1 j)) (Ideal.ofBits .f32 0x00000000#32)

/-- One entry of the result. -/
def outAt (b : Fin 2048) (o : Fin 1024) : EReal :=
  (∑ j : Fin 1024, hidden X S Θ B b j * W (ix2 j o)) + B2 (ix1 o)

/-- The result array. -/
def out : Mat 2048 1024 := fun i => outAt X S Θ B W B2 (i 0) (i 1)

theorem out_apply (b : Fin 2048) (o : Fin 1024) : out X S Θ B W B2 (ix2 b o) = outAt X S Θ B W B2 b o := rfl

end Cert.MaskedMlp

end
-- ==== Proof.Accum.lean ====
/-
  The accumulator along a row of the grid is the partial contraction, over the extended reals.

  After point `t` (row `t / 16` of the batch tiles, position `t % 16` along the contraction) the scratch accumulator
  holds, at `(r, j)`, the contraction of row `512 * (t / 16) + r` of `X` with row `j` of `S * Θ` over the first
  `512 * (t % 16 + 1)` positions.  At the first point of a row this is the zero block plus the first block of summands;
  at a later point it is what the point before left plus the next block (the two points lie in the same row of the
  grid, so they speak of the same row of `X`).  Nothing but re-grouping the sum is used.  At the last point of a row
  all 8192 positions are in, and the output block is the specification's entry.
-/
import proofs.«178797_j52338471469275_1_alg».proof.Proof.Steps
import proofs.«178797_j52338471469275_1_alg».proof.Proof.PayAt
import proofs.«178797_j52338471469275_1_alg».proof.Proof.Spec

noncomputable section

namespace Cert.KernelIdeal.Accum

open Cert.KernelIdeal Cert.KernelIdeal.Gen Idealize.ShloMosaic Idealize.ShloMosaic.TcCoe Idealize.ShloMosaic.ValueIdx
open Cert.KernelIdeal.Blocks Cert.MaskedMlp

variable (m : (ℓ : Loc nD τ sig) → Buf (Elt Ideal) ℓ)

/-- The block product at `(r, j)` of point `t` is block `t % 16` of the contraction's summands. -/
theorem block_sum (c : Dev nD) (t : Fin cfg0.N) (r : Fin 512) (j : Fin 1024) :
    ∑ l : Fin 512, xblk m c t (ix2 r l) * (sblk m c t (ix2 j l) * θblk m c t (ix2 j l))
      = ∑ l : Fin 512, term (Xarr m c) (Sarr m c) (Θarr m c) (rowOf t.val (lt64 t) r) j (512 * (t.val % 16) + l.val) := by
  refine Finset.sum_congr rfl fun l _ => ?_
  rw [xblk_apply, sblk_apply, θblk_apply, term_block _ _ _ _ _ (t.val % 16) (Nat.mod_lt _ (by decide)) l]
  rfl

/-- The accumulator after the first point of a row: the first block of summands. -/
theorem acc_first (c : Dev nD) (t : Fin cfg0.N) (h0 : t.val % 16 = 0) (r : Fin 512) (j : Fin 1024) :
    (outsAt0 m c t.val t.isLt).2 (ix2 r j)
      = partialLogit (Xarr m c) (Sarr m c) (Θarr m c) (rowOf t.val (lt64 t) r) j (512 * (t.val % 16 + 1)) := by
  rw [congrFun (Steps.acc_first m c t h0) (ix2 r j), PayAt.pay2_apply, PayAt.pay1_apply, zero_add, block_sum, h0,
    partialLogit_first]

/-- The accumulator after a later point: one more block over what the point before left. -/
theorem acc_later (c : Dev nD) (t : Fin cfg0.N) (h0 : ¬t.val % 16 = 0) (r : Fin 512) (j : Fin 1024)
    (ih : (outsAt0 m c (t.val - 1) (Nat.lt_of_le_of_lt (Nat.sub_le _ _) t.isLt)).2 (ix2 r j)
      = partialLogit (Xarr m c) (Sarr m c) (Θarr m c)
          (rowOf (t.val - 1) (Nat.lt_of_le_of_lt (Nat.sub_le _ _) (lt64 t)) r) j (512 * ((t.val - 1) % 16 + 1))) :
    (outsAt0 m c t.val t.isLt).2 (ix2 r j)
      = partialLogit (Xarr m c) (Sarr m c) (Θarr m c) (rowOf t.val (lt64 t) r) j (512 * (t.val % 16 + 1)) := by
  have hrow : rowOf (t.val - 1) (Nat.lt_of_le_of_lt (Nat.sub_le _ _) (lt64 t)) r = rowOf t.val (lt64 t) r :=
    Fin.ext (by show 512 * ((t.val - 1) / 16) + r.val = 512 * (t.val / 16) + r.val; omega)
  have hk : (t.val - 1) % 16 + 1 = t.val % 16 := by omega
  rw [congrFun (Steps.acc_later m c t h0) (ix2 r j), PayAt.pay2_apply, ih, hrow, hk, block_sum, partialLogit_succ]

/-- THE INVARIANT: after any point the accumulator is the partial contraction up to and including that point's block. -/
theorem acc_eq (c : Dev nD) (t : Fin cfg0.N) (r : Fin 512) (j : Fin 1024) :
    (outsAt0 m c t.val t.isLt).2 (ix2 r j)
      = partialLogit (Xarr m c) (Sarr m c) (Θarr m c) (rowOf t.val (lt64 t) r) j (512 * (t.val % 16 + 1)) := by
  obtain ⟨n, hn⟩ := t
  induction n with
  | zero => exact acc_first m c ⟨0, hn⟩ rfl r j
  | succ k ih =>
    by_cases h0 : (k + 1) % 16 = 0
    · exact acc_first m c ⟨k + 1, hn⟩ h0 r j
    · exact acc_later m c ⟨k + 1, hn⟩ h0 r j (ih (Nat.lt_of_succ_lt hn))

/-- At the last point of a row the output block holds the specification's entries of that row of the batch tiles. -/
theorem out_eq (c : Dev nD) (t : Fin cfg0.N) (h1 : t.val % 16 = 15) (r : Fin 512) (o : Fin 1024) :
    (outsAt0 m c t.val t.isLt).1 (ix2 r o)
      = outAt (Xarr m c) (Sarr m c) (Θarr m c) (Barr m c) (Warr m c) (B2arr m c) (rowOf t.val (lt64 t) r) o := by
  rw [congrFun (Steps.out_last m c t h1) (ix2 r o), PayAt.pay3_apply, b2blk_apply]
  unfold outAt MaskedMlp.hidden
  congr 1
  refine Finset.sum_congr rfl fun j _ => ?_
  rw [acc_eq m c t r j, h1, bblk_apply, wblk_apply]

end Cert.KernelIdeal.Accum

end
-- ==== Proof.Final.lean ====
/-
  The kernel's result array is the specification.

  The output window is written back only after the last point of each row of the grid (points 15, 31, 47, 63), and
  what is written back there is the output block, which holds the specification's entries for rows
  `512 * (t / 16) + r`.  The four blocks are the four bands of 512 rows of the `[2048, 1024]` result: an entry in row
  `b` is in the block of point `16 * (b / 512) + 15`.  So after the run the result array is the specification at
  every entry, and the argument arrays are as they were.
-/
import proofs.«178797_j52338471469275_1_alg».proof.Proof.Accum
import proofs.«178797_j52338471469275_1_alg».proof.Proof.Gen.KernelIdeal.Value

noncomputable section

namespace Cert.KernelIdeal.Final

open Cert.KernelIdeal Cert.KernelIdeal.Gen Idealize.ShloMosaic Idealize.ShloMosaic.TcCoe Idealize.ShloMosaic.ValueIdx
open Idealize.SL.Sem
open Cert.KernelIdeal.Blocks Cert.MaskedMlp

variable (m : (ℓ : Loc nD τ sig) → Buf (Elt Ideal) ℓ) (ρ : Dev nD → PrngReg)

/-- The specification of the argument arrays as the kernel finds them, as contents of the result array. -/
abbrev result (c : Dev nD) : Buf (Elt Ideal) ((c : Thread nD τ).loc main_v0) :=
  out (Xarr m c) (Sarr m c) (Θarr m c) (Barr m c) (Warr m c) (B2arr m c)

/-- What a last point of a row writes back is its block of the specification. -/
theorem flushed_eq (c : Dev nD) (t : Fin cfg0.N) (hf : (cfg0.win 6).flush t = true) :
    (dats m 0 c).flushed 6 t = ((cfg0.win 6).blk t).view.read (Elt Ideal) (result m c) := by
  have h1 : t.val % 16 = 15 := (flush0_6 t).mp hf
  have hi := index6 t
  rw [Value.flushed6]
  funext y
  obtain ⟨r, o, rfl⟩ : ∃ (r : Fin 512) (o : Fin 1024), y = ix2 r o := ⟨y 0, y 1, eq_ix2 y⟩
  show (outsAt0 m c t.val t.isLt).1 (ix2 r o) = result m c (((cfg0.win 6).blk t).view.emb (ix2 r o))
  have e : ((cfg0.win 6).blk t).view.emb (ix2 r o) = ix2 (rowOf t.val (lt64 t) r) o := by
    funext a
    apply Fin.ext
    match a with
    | ⟨0, _⟩ => show win0_6.index t 0 * 512 + 1 * r.val = 512 * (t.val / 16) + r.val; rw [hi.1]; omega
    | ⟨1, _⟩ => show win0_6.index t 1 * 1024 + 1 * o.val = o.val; rw [hi.2]; omega
  rw [e, Accum.out_eq m c t h1 r o]
  rfl

/-- Every entry of the result array lies in the block some last point of a row writes back. -/
theorem covered (i : S2048x1024.Idx) :
    ∃ t : Fin cfg0.N, (cfg0.win 6).flush t = true ∧ i ∈ ((cfg0.win 6).blk t).view.set := by
  have hi0 : (i 0).val < 2048 := (i 0).isLt
  have hi1 : (i 1).val < 1024 := (i 1).isLt
  have hN : cfg0.N = 64 := N_0
  obtain ⟨t, ht⟩ : ∃ t : Fin cfg0.N, t.val = 16 * ((i 0).val / 512) + 15 := ⟨⟨16 * ((i 0).val / 512) + 15, by omega⟩, rfl⟩
  have hi := index6 t
  refine ⟨t, (flush0_6 t).mpr (by omega), ?_⟩
  show i ∈ ((View.whole main_v0).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [hi.1]; omega
  | ⟨1, _⟩ =>
    show win0_6.index t 1 * 1024 ≤ (i 1).val ∧ (i 1).val < win0_6.index t 1 * 1024 + 1024
    rw [hi.2]; omega

/-- So the result array ends holding the specification. -/
theorem final (c : Dev nD) : (dats m 0 c).arrAt 6 cfg0.N = result m c :=
  (dats m 0 c).arrAt_eq_of_cover 6 (result m c) (flushed_eq m c) covered

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.RefIsSpec.lean ====
/-
  The reference computes the specification.

  Its result is the host's `dot_general` of the clipped, biased first `dot_general` with the second weight matrix, plus
  the second bias.  Read at an entry `(b, o)`, the outer contraction is a sum over `j < 1024`, the inner one a sum over
  `q < 8192` of `X[b, q] * (S[j, q] * Θ[j, q])`; the two broadcasts of a bias read that bias at the column.  These are
  the specification's `outAt`, term by term.
-/
import proofs.«178797_j52338471469275_1_alg».proof.Proof.Gen.ReferenceIdeal.Read
import proofs.«178797_j52338471469275_1_alg».proof.Proof.Spec

noncomputable section

namespace Cert.ReferenceIdeal.IsSpec

open Cert.ReferenceIdeal Cert.ReferenceIdeal.Read Idealize.ShloMosaic Idealize.ShloMosaic.ValueIdx Cert.MaskedMlp

/-! The operand indices of the two contractions and of the two bias broadcasts, by coordinates. -/

theorem lidx1 (b : Fin 2048) (j : Fin 1024) (q : Fin 8192) : lidx_main_v1 (ix2 b j) q = ix2 b q :=
  funext fun a => by match a with | ⟨0, _⟩ => rfl | ⟨1, _⟩ => rfl
theorem ridx1 (b : Fin 2048) (j : Fin 1024) (q : Fin 8192) : ridx_main_v1 (ix2 b j) q = ix2 j q :=
  funext fun a => by match a with | ⟨0, _⟩ => rfl | ⟨1, _⟩ => rfl
theorem bias1 (b : Fin 2048) (j : Fin 1024) : idx_main_v2 (idx_main_v3 (ix2 b j)) = ix1 j :=
  funext fun a => by match a with | ⟨0, _⟩ => rfl
theorem lidx6 (b : Fin 2048) (o j : Fin 1024) : lidx_main_v6 (ix2 b o) j = ix2 b j :=
  funext fun a => by match a with | ⟨0, _⟩ => rfl | ⟨1, _⟩ => rfl
theorem ridx6 (b : Fin 2048) (o j : Fin 1024) : ridx_main_v6 (ix2 b o) j = ix2 j o :=
  funext fun a => by match a with | ⟨0, _⟩ => rfl | ⟨1, _⟩ => rfl
theorem bias2 (b : Fin 2048) (o : Fin 1024) : idx_main_v7 (idx_main_v8 (ix2 b o)) = ix1 o :=
  funext fun a => by match a with | ⟨0, _⟩ => rfl

variable (X : Mat 2048 8192) (S Θ : Mat 1024 8192) (B : Row 1024) (W : Mat 1024 1024) (B2 : Row 1024)

/-- The clipped, biased first contraction at `(b, j)` is the specification's hidden activation. -/
theorem hidden_eq (b : Fin 2048) (j : Fin 1024) :
    val_main_v5 (F := Ideal) X S Θ B (ix2 b j) = hidden X S Θ B b j := by
  rw [val_main_v5_apply, val_main_v4_apply, val_main_v1_apply, val_main_v3_apply, val_main_v2_apply,
    val_main_call0_v0_apply, val_main_call0_cst_apply, bias1]
  simp only [lidx1, ridx1, val_main_v0_apply, Ideal.maximumf_def, Ideal.addf_def, Ideal.mulf_def, Ideal.ofBits_def]
  unfold MaskedMlp.hidden
  rw [partialLogit_full]
  rfl

/-- The reference's result array is the specification's. -/
theorem result_eq : val_main_v9 (F := Ideal) X S Θ B W B2 = out X S Θ B W B2 := by
  funext i
  obtain ⟨b, o, rfl⟩ : ∃ (b : Fin 2048) (o : Fin 1024), i = ix2 b o := ⟨i 0, i 1, eq_ix2 i⟩
  rw [val_main_v9_apply, val_main_v6_apply, val_main_v8_apply, val_main_v7_apply, bias2, out_apply]
  unfold outAt
  simp only [lidx6, ridx6, hidden_eq, Ideal.addf_def]

end Cert.ReferenceIdeal.IsSpec

end
-- ==== Proof.lean ====
/-
  A masked dense layer followed by a clipped second dense layer, accumulated block by block, against the same
  computation taken whole.

  Both programs take `X : [2048, 8192]`, a mask `S` and weights `Θ` of shape `[1024, 8192]`, a bias `B : [1024]`, a
  second weight matrix `W : [1024, 1024]` and a second bias `B2 : [1024]`, and both produce

      out[b, o] = (∑ j < 1024, max ((∑ q < 8192, X[b, q] * (S[j, q] * Θ[j, q])) + B[j]) 0 * W[j, o]) + B2[o].

  The reference contracts over all 8192 positions at once.  The kernel walks a 4 × 16 grid: for each band of 512 rows
  it zeroes a `[512, 1024]` accumulator, adds to it the contraction over 512 positions at each of 16 points, and at
  the sixteenth adds the bias, clips at zero, multiplies by `W`, adds `B2` and writes the band out.  Narrowing the
  operands of the two products to sixteen bits is the identity on extended reals, and the clip is the same maximum
  with the same zero word on both sides.  So the only difference is the grouping of the inner sum, sixteen blocks of
  512 added in order from zero against one sum of 8192, and addition of extended reals is commutative and
  associative: no finiteness of the entries is needed, and the precondition is never opened.

  The argument: the value each case of the kernel body leaves (Pieces), those values read at an entry (PayAt), the
  blocks a point sees as entries of the arrays (Blocks), the accumulator after a point in terms of the point before
  (Steps), the invariant that it is the partial contraction (Accum, over LibBlockSum and Spec), the result array (Final),
  and the reference read at an entry (RefIsSpec).  The ideal pass rewrote nothing, so the kernel's idealization is the
  kernel's own text read over the extended reals.
-/
import proofs.«178797_j52338471469275_1_alg».proof.Defs
import proofs.«178797_j52338471469275_1_alg».proof.Proof.Gen.Kernel
import proofs.«178797_j52338471469275_1_alg».proof.Proof.Gen.Kernel.Frame
import proofs.«178797_j52338471469275_1_alg».proof.Proof.Gen.KernelIdeal
import proofs.«178797_j52338471469275_1_alg».proof.Proof.Gen.KernelIdeal.Frame
import proofs.«178797_j52338471469275_1_alg».proof.Proof.Gen.ReferenceIdeal
import proofs.«178797_j52338471469275_1_alg».proof.Proof.Gen.ReferenceIdeal.Run
import proofs.«178797_j52338471469275_1_alg».proof.Proof.Gen.ReferenceIdeal.Read
import proofs.«178797_j52338471469275_1_alg».proof.Proof.Gen.Pre_finite_inputs
import proofs.«178797_j52338471469275_1_alg».proof.Proof.Final
import proofs.«178797_j52338471469275_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the six arguments both programs end with the specification of those arguments in
    their result arrays: the kernel by the accumulator's invariant, the reference by reading its operations at an
    entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.IsSpec.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
